-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩
abbrev S1x800000 : Shape := ⟨2, ![1, 800000]⟩
abbrev S800000 : Shape := ⟨1, ![800000]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part2 {F : FTy → Type} [FloatOps F] (main_arg1 : IVec S2x800000 32) (main_arg8 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : IVec S1x800000 32 := (extractStridedSlice S1x800000 ![0, 0] · slices_S2x800000_S1x800000_0_0) main_arg1
  let main_v40 : IVec S800000 32 := shapeCast S800000 main_v39 shapeCasts_S1x800000_S800000
  let main_c_14 : IVec S_ 32 := constantI S_ 32 4294917296#32
  let main_v41 : IVec S800000 32 := broadcastInDim S800000 ![] bcast_S_S800000 main_c_14
  let main_v42 : IVec S800000 1 := cmpi .sge main_v40 main_v41
  let main_v43 : IVec S1x800000 32 := (extractStridedSlice S1x800000 ![0, 0] · slices_S2x800000_S1x800000_0_0) main_arg1
  let main_v44 : IVec S800000 32 := shapeCast S800000 main_v43 shapeCasts_S1x800000_S800000
  let main_c_15 : IVec S_ 32 := constantI S_ 32 50000#32
  let main_v45 : IVec S800000 32 := broadcastInDim S800000 ![] bcast_S_S800000 main_c_15
  let main_v46 : IVec S800000 1 := cmpi .slt main_v44 main_v45
  let main_v47 : IVec S800000 1 := andi main_v42 main_v46
  let main_c_16 : IVec S_ 1 := constantI S_ 1 1#1
  let main_v48 : IVec S_ 1 := (fun x v => Host.reduce IntOp.andi x v reducesTo_S800000_S_d0 h_S_) main_v47 main_c_16
  let main_v49 : IVec S_ 1 := andi main_v38 main_v48
  main_v49

def fn_part1 {F : FTy → Type} [FloatOps F] (main_arg1 : IVec S2x800000 32) (main_arg5 : FVec F S128x128 .f32) (main_arg6 : FVec F S128x128 .f32) (main_arg7 : FVec F S128 .f32) (main_arg8 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_v33

def fn {F : FTy → Type} [FloatOps F] (main_arg0 : FVec F S50000x128 .f32) (main_arg1 : IVec S2x800000 32) (main_arg2 : FVec F S50000x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x1 : Shape := ⟨2, ![50000, 1]⟩
abbrev S1x128 : Shape := ⟨2, ![1, 128]⟩
abbrev S5000x128 : Shape := ⟨2, ![5000, 128]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S1, .i32⟩
  | .hbm, ⟨22, _⟩ => ⟨S_, .i32⟩
  | .hbm, ⟨23, _⟩ => ⟨S800000x1, .i32⟩
  | .hbm, ⟨24, _⟩ => ⟨S800000x1, .i1⟩
  | .hbm, ⟨25, _⟩ => ⟨S1x1, .i32⟩
  | .hbm, ⟨26, _⟩ => ⟨S800000x1, .i32⟩
  | .hbm, ⟨27, _⟩ => ⟨S800000x1, .i1⟩
  | .hbm, ⟨28, _⟩ => ⟨S800000x1, .i1⟩
  | .hbm, ⟨29, _⟩ => ⟨S_, .i1⟩
  | .hbm, ⟨30, _⟩ => ⟨S800000, .i1⟩
  | .hbm, ⟨31, _⟩ => ⟨S800000x128, .f32⟩
  | .hbm, ⟨32, _⟩ => ⟨S800000x128, .i1⟩
  | .hbm, ⟨33, _⟩ => ⟨S_, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S_, .f32⟩
  | .hbm, ⟨41, _⟩ => ⟨S800000x1, .f32⟩
  | .hbm, ⟨42, _⟩ => ⟨S_, .f32⟩
  | .hbm, ⟨43, _⟩ => ⟨S50000x1, .f32⟩
  | .hbm, ⟨44, _⟩ => ⟨S800000x1, .i32⟩
  | .hbm, ⟨45, _⟩ => ⟨S50000x1, .f32⟩
  | .hbm, ⟨46, _⟩ => ⟨S_, .f32⟩
  | .hbm, ⟨47, _⟩ => ⟨S50000x1, .f32⟩
  | .hbm, ⟨48, _⟩ => ⟨S50000x1, .f32⟩
  | .hbm, ⟨49, _⟩ => ⟨S50000x128, .f32⟩
  | .hbm, ⟨50, _⟩ => ⟨S50000x128, .f32⟩
  | .hbm, ⟨51, _⟩ => ⟨S1x128, .f32⟩
  | .hbm, ⟨52, _⟩ => ⟨S50000x128, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S1, .i32⟩
  | .hbm, ⟨62, _⟩ => ⟨S_, .i32⟩
  | .hbm, ⟨63, _⟩ => ⟨S800000x1, .i32⟩
  | .hbm, ⟨64, _⟩ => ⟨S800000x1, .i1⟩
  | .hbm, ⟨65, _⟩ => ⟨S1x1, .i32⟩
  | .hbm, ⟨66, _⟩ => ⟨S800000x1, .i32⟩
  | .hbm, ⟨67, _⟩ => ⟨S800000x1, .i1⟩
  | .hbm, ⟨68, _⟩ => ⟨S800000x1, .i1⟩
  | .hbm, ⟨69, _⟩ => ⟨S_, .i1⟩
  | .hbm, ⟨70, _⟩ => ⟨S800000, .i1⟩
  | .hbm, ⟨71, _⟩ => ⟨S800000x128, .f32⟩
  | .hbm, ⟨72, _⟩ => ⟨S800000x128, .i1⟩
  | .hbm, ⟨73, _⟩ => ⟨S_, .f32⟩
  | .hbm, ⟨74, _⟩ => ⟨S800000x128, .f32⟩
  | .hbm, ⟨75, _⟩ => ⟨S800000x128, .f32⟩
  | .hbm, ⟨76, _⟩ => ⟨S_, .f32⟩
  | .hbm, ⟨77, _⟩ => ⟨S50000x128, .f32⟩
  | .hbm, ⟨78, _⟩ => ⟨S800000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v4 : Ref sig .tc := ⟨.hbm, 35, rfl⟩
abbrev main_cst : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_cst_0 : Ref sig .tc := ⟨.hbm, 40, rfl⟩
abbrev main_v8 : Ref sig .tc := ⟨.hbm, 41, rfl⟩
abbrev main_cst_1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_2 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_call1_c : Ref sig .tc := ⟨.hbm, 53, rfl⟩
abbrev main_call1_v0 : Ref sig .tc := ⟨.hbm, 54, rfl⟩
abbrev main_call1_v1 : Ref sig .tc := ⟨.hbm, 55, rfl⟩
abbrev main_call1_c_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_c_1 : Ref sig .tc := ⟨.hbm, 61, rfl⟩
abbrev main_call1_c_2 : Ref sig .tc := ⟨.hbm, 62, rfl⟩
abbrev main_call1_v6 : Ref sig .tc := ⟨.hbm, 63, rfl⟩
abbrev main_call1_v7 : Ref sig .tc := ⟨.hbm, 64, rfl⟩
abbrev main_call1_v8 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_3 : Ref sig .tc := ⟨.hbm, 69, rfl⟩
abbrev main_call1_v12 : Ref sig .tc := ⟨.hbm, 70, rfl⟩
abbrev main_call1_v13 : Ref sig .tc := ⟨.hbm, 71, rfl⟩
abbrev main_call1_v14 : Ref sig .tc := ⟨.hbm, 72, rfl⟩
abbrev main_call1_cst : Ref sig .tc := ⟨.hbm, 73, rfl⟩
abbrev main_call1_v15 : Ref sig .tc := ⟨.hbm, 74, rfl⟩
abbrev main_v18 : Ref sig .tc := ⟨.hbm, 75, rfl⟩
abbrev main_cst_3 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg2) S5000x128.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v17) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S_, .f32⟩
  | .hbm, ⟨23, _⟩ => ⟨S50000x128, .f32⟩
  | .hbm, ⟨24, _⟩ => ⟨S800000x1, .i32⟩
  | .hbm, ⟨25, _⟩ => ⟨S50000x128, .f32⟩
  | .hbm, ⟨26, _⟩ => ⟨S_, .f32⟩
  | .hbm, ⟨27, _⟩ => ⟨S800000x1, .f32⟩
  | .hbm, ⟨28, _⟩ => ⟨S_, .f32⟩
  | .hbm, ⟨29, _⟩ => ⟨S50000x1, .f32⟩
  | .hbm, ⟨30, _⟩ => ⟨S800000x1, .i32⟩
  | .hbm, ⟨31, _⟩ => ⟨S50000x1, .f32⟩
  | .hbm, ⟨32, _⟩ => ⟨S_, .f32⟩
  | .hbm, ⟨33, _⟩ => ⟨S50000x1, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S1x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000x1, .f32⟩
  | .hbm, ⟨65, _⟩ => ⟨S_, .f32⟩
  | .hbm, ⟨66, _⟩ => ⟨S50000x1, .f32⟩
  | .hbm, ⟨67, _⟩ => ⟨S800000x1, .i32⟩
  | .hbm, ⟨68, _⟩ => ⟨S50000x1, .f32⟩
  | .hbm, ⟨69, _⟩ => ⟨S_, .f32⟩
  | .hbm, ⟨70, _⟩ => ⟨S50000x1, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S50000x128, .f32⟩
  | .hbm, ⟨79, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_cst : Ref sig .tc := ⟨.hbm, 43, rfl⟩
abbrev main_call0_v0 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_cst_9 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_10 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000x1_S800000x1_S800000x1_1_0_0_1_wf : ScatterDims.WF S50000x1 S800000x1 S800000x1 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.SageHost.lean ====
/-
  The host side of both layers, as pure functions of the edge list: the source and destination node of every edge,
  the source index with a negative value counted from the end, the rows of a [50000, 128] array read at those
  indices (with the fill value where an index misses the array, and without), the neighbour count of every node
  (at least one), and the mean of the messages that arrive at a node.
  When every source index lies in [-50000, 50000) no read misses the array, and the two ways of reading agree.
-/
import proofs.«400240_j55937654063702_1_alg».proof.Proof.Gen.KernelIdeal
import Idealize.ShloMosaic.Lib.ValueIdx
import Idealize.ShloMosaic.Lib.ReduceAll
import Idealize.ShloMosaic.Lib.StableHlo.Predicate

noncomputable section

namespace Cert.KernelIdeal.Sage

open Cert.KernelIdeal Cert.KernelIdeal.Gen Idealize.ShloMosaic

variable {F : FTy → Type} [FloatOps F]

/-- Row 0 of the edge list: the source node of each edge. -/
def srcOf (ei : IVec S2x800000 32) : IVec S800000 32 :=
  shapeCast S800000 (extractStridedSlice S1x800000 ![0, 0] ei slices_S2x800000_S1x800000_0_0) shapeCasts_S1x800000_S800000

/-- Row 1 of the edge list: the destination node of each edge. -/
def dstOf (ei : IVec S2x800000 32) : IVec S800000 32 :=
  shapeCast S800000 (extractStridedSlice S1x800000 ![1, 0] ei slices_S2x800000_S1x800000_1_0) shapeCasts_S1x800000_S800000

/-- A negative index counts from the end: 50000 is added to it. -/
def wrapIdx (s : IVec S800000 32) : IVec S800000 32 :=
  select (cmpi .slt s (broadcastInDim S800000 ![] bcast_S_S800000 (constantI S_ 32 0#32)))
    (addi s (broadcastInDim S800000 ![] bcast_S_S800000 (constantI S_ 32 50000#32))) s

/-- The wrapped index as the one-column index array a row gather takes. -/
def rowIdx (s : IVec S800000 32) : IVec S800000x1 32 :=
  broadcastInDim S800000x1 ![0] bcast_S800000_S800000x1_0 (wrapIdx s)

/-- Per edge: does the wrapped index name one of the 50000 rows? -/
def inRows (s : IVec S800000 32) : IVec S800000 1 :=
  Host.reduce IntOp.andi
    (andi (cmpi .sge (rowIdx s) (broadcastInDim S800000x1 ![] bcast_S_S800000x1 (constantI S_ 32 0#32)))
      (cmpi .sle (rowIdx s) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The rows of `x` at the wrapped indices. -/
def gatherRows (x : FVec F S50000x128 .f32) (s : IVec S800000 32) : FVec F S800000x128 .f32 :=
  Host.gather gather_S50000x128_S800000x1_S800000x128_1_0_n_n_0_1_1128 x (rowIdx s)

/-- The same rows, with the fill value in the rows whose index misses the array. -/
def takeRows (x : FVec F S50000x128 .f32) (s : IVec S800000 32) : FVec F S800000x128 .f32 :=
  select (broadcastInDim S800000x128 ![0] bcast_S800000_S800000x128_0 (inRows s)) (gatherRows x s)
    (broadcastInDim S800000x128 ![] bcast_S_S800000x128 (constant S_ .f32 0x7FC00000#32))

/-- How many edges arrive at each node, and at least one. -/
def degree (d : IVec S800000 32) : FVec F S50000x1 .f32 :=
  maximumf
    (Host.scatterAdd scatter_S50000x1_S800000x1_S800000x1_1_0_0_1
      (broadcastInDim S50000x1 ![] bcast_S_S50000x1 (constant S_ .f32 0x00000000#32))
      (broadcastInDim S800000x1 ![0] bcast_S800000_S800000x1_0 d)
      (broadcastInDim S800000x1 ![] bcast_S_S800000x1 (constant S_ .f32 0x3F800000#32)))
    (broadcastInDim S50000x1 ![] bcast_S_S50000x1 (constant S_ .f32 0x3F800000#32))

/-- The sum of the messages that arrive at each node, over a given count per node. -/
def meanOver (msg : FVec F S800000x128 .f32) (d : IVec S800000 32) (cnt : FVec F S50000x1 .f32) : FVec F S50000x128 .f32 :=
  Host.divf
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d) msg)
    (broadcastInDim S50000x128 ![0, 1] bcast_S50000x1_S50000x128_0_1 cnt)

/-- The bias vector as a row. -/
def biasRow (b : FVec F S128 .f32) : FVec F S1x128 .f32 := shapeCast S1x128 b shapeCasts_S128_S1x128

/-- Every source index names a row, counted from the front or from the end. -/
def SrcInRange (s : IVec S800000 32) : Prop := ∀ e : S800000.Idx, (-50000 : Int) ≤ (s e).toInt ∧ (s e).toInt < 50000

/-- A left fold by `and` from 1 over one-bit words that are all 1 is 1. -/
private theorem foldl_andi_one {ι : Type} (f : ι → BitVec 1) (init : BitVec 1) (hinit : init = 1#1) :
    ∀ (l : List ι), (∀ n ∈ l, f n = 1#1) → l.foldl (fun r n => IntOp.andi r (f n)) init = 1#1
  | [], _ => hinit
  | a :: l, h => by
    have ha : f a = 1#1 := h a (List.mem_cons_self ..)
    have h11 : IntOp.andi 1#1 1#1 = 1#1 := by decide
    rw [List.foldl_cons]
    exact foldl_andi_one f _ (by rw [hinit, ha, h11]) l (fun n hn => h n (List.mem_cons_of_mem _ hn))

/-- Adding 50000 to a word whose signed value lies in [-50000, 0) does not wrap: the signed value rises by 50000. -/
private theorem toInt_wrap (w : BitVec 32) (h1 : -50000 ≤ w.toInt) (h2 : w.toInt < 0) :
    (w + 50000#32).toInt = w.toInt + 50000 := by
  have h5 : (50000#32).toInt = 50000 := by decide
  rw [BitVec.toInt_add, h5]
  exact Int.bmod_eq_of_le (by omega) (by omega)

/-- A word whose signed value lies in [-50000, 50000), with 50000 added when it is negative, lies in [0, 49999]:
    both signed compares come out 1. -/
private theorem wrap_word (w : BitVec 32) (h1 : -50000 ≤ w.toInt) (h2 : w.toInt < 50000) :
    IntOp.cmpi .sge (Scalar.select (IntOp.cmpi .slt w 0#32) (IntOp.addi w 50000#32) w) 0#32 = 1#1 ∧
    IntOp.cmpi .sle (Scalar.select (IntOp.cmpi .slt w 0#32) (IntOp.addi w 50000#32) w) 49999#32 = 1#1 := by
  have h0 : (0#32).toInt = 0 := by decide
  have h9 : (49999#32).toInt = 49999 := by decide
  by_cases hneg : w.toInt < 0
  · have hc : IntOp.cmpi .slt w 0#32 = 1#1 := by
      show BitVec.ofBool (w.slt 0#32) = 1#1
      rw [StableHlo.Predicate.ofBool_eq_one_iff, BitVec.slt_iff_toInt_lt, h0]; exact hneg
    rw [hc, ValueIdx.select_one]
    have hw := toInt_wrap w h1 hneg
    constructor
    · show BitVec.ofBool ((0#32).sle (w + 50000#32)) = 1#1
      rw [StableHlo.Predicate.ofBool_eq_one_iff, BitVec.sle_iff_toInt_le, h0]
      omega
    · show BitVec.ofBool ((w + 50000#32).sle 49999#32) = 1#1
      rw [StableHlo.Predicate.ofBool_eq_one_iff, BitVec.sle_iff_toInt_le, h9]
      omega
  · have hc : IntOp.cmpi .slt w 0#32 = 0#1 := by
      apply ValueIdx.eq_zero_of_ne_one
      show ¬ BitVec.ofBool (w.slt 0#32) = 1#1
      rw [StableHlo.Predicate.ofBool_eq_one_iff, BitVec.slt_iff_toInt_lt, h0]; exact hneg
    rw [hc, ValueIdx.select_zero]
    constructor
    · show BitVec.ofBool ((0#32).sle w) = 1#1
      rw [StableHlo.Predicate.ofBool_eq_one_iff, BitVec.sle_iff_toInt_le, h0]
      omega
    · show BitVec.ofBool (w.sle 49999#32) = 1#1
      rw [StableHlo.Predicate.ofBool_eq_one_iff, BitVec.sle_iff_toInt_le, h9]
      omega

/-- A broadcast read at an index is the operand at some index of its own. -/
private theorem bcast_ex {α : Type} {s t : Shape} (dims : Fin s.rank → Fin t.rank) (h : s.BroadcastsInDim t dims)
    (x : s.Idx → α) (j : t.Idx) : ∃ e : s.Idx, broadcastInDim t dims h x j = x e := ⟨_, rfl⟩

/-- The wrapped index of edge `e`: the source word, with 50000 added when it is negative. -/
private theorem wrapIdx_apply (s : IVec S800000 32) (e : S800000.Idx) :
    wrapIdx s e = Scalar.select (IntOp.cmpi .slt (s e) 0#32) (IntOp.addi (s e) 50000#32) (s e) := by
  simp only [wrapIdx, select, cmpi, addi, broadcastInDim, constantI]

/-- Every entry of the one-column index array is the wrapped index of some edge. -/
private theorem rowIdx_apply (s : IVec S800000 32) (n : S800000x1.Idx) : ∃ e : S800000.Idx, rowIdx s n = wrapIdx s e := by
  unfold rowIdx
  exact bcast_ex _ _ _ _

/-- With every source index in range, every wrapped index names a row. -/
private theorem inRows_eq_one (s : IVec S800000 32) (h : SrcInRange s) (e : S800000.Idx) : inRows s e = 1#1 := by
  unfold inRows
  rw [Host.reduce_eq_foldl]
  refine foldl_andi_one _ _ rfl _ ?_
  intro n _
  obtain ⟨e', he'⟩ := rowIdx_apply s n
  obtain ⟨hge, hle⟩ := wrap_word (s e') (h e').1 (h e').2
  simp only [andi, cmpi, broadcastInDim, constantI]
  rw [he', wrapIdx_apply, hge, hle]
  decide

/-- With every source index in range, no row is filled: reading with the fill value is plain reading. -/
theorem takeRows_eq_gatherRows (x : FVec F S50000x128 .f32) (s : IVec S800000 32) (h : SrcInRange s) :
    takeRows x s = gatherRows x s := by
  funext i
  unfold takeRows
  rw [ValueIdx.select_apply]
  obtain ⟨e, he⟩ := bcast_ex ![0] bcast_S800000_S800000x128_0 (inRows s) i
  rw [he, inRows_eq_one s h e, ValueIdx.select_one]

end Cert.KernelIdeal.Sage

end
-- ==== Proof.SageSpec.lean ====
/-
  The two layers of the graph network as functions of whole arrays, index by index, on the extended reals.
  A layer takes the neighbour means `M` and the node features `X` (both [50000, 128]), two [128, 128] weight
  matrices and a [1, 128] bias row:  out[r, q] = (Σₖ M[r, k]·Wl[k, q] + Σₖ X[r, k]·Wr[k, q]) + b[0, q].
  The first layer follows it with max(·, 0), the dropout mask and the factor 2.
-/
import Idealize.ShloMosaic.Lib.ValueIdx
import Idealize.ShloMosaic.PureOps.Ideal.Laws

noncomputable section

namespace Cert.Sage

open Idealize.ShloMosaic Idealize.ShloMosaic.ValueIdx

/-- Node features and neighbour means: 50000 nodes, 128 channels. -/
abbrev SN : Shape := ⟨2, ![50000, 128]⟩
/-- A weight matrix. -/
abbrev SW : Shape := ⟨2, ![128, 128]⟩
/-- A bias row. -/
abbrev SB : Shape := ⟨2, ![1, 128]⟩

/-- One entry of the linear part of a layer: row `r` of the means against column `q` of `Wl`, plus row `r` of the
    features against column `q` of `Wr`, plus the bias of channel `q`. -/
def lin (M X : SN.Idx → EReal) (Wl Wr : SW.Idx → EReal) (b : SB.Idx → EReal) (r : Fin 50000) (q : Fin 128) : EReal :=
  ((∑ k : Fin 128, M (ix2 r k) * Wl (ix2 k q)) + (∑ k : Fin 128, X (ix2 r k) * Wr (ix2 k q))) + b (ix2 0 q)

/-- The second layer: the linear part alone. -/
def sageLin (M X : SN.Idx → EReal) (Wl : SW.Idx → EReal) (b : SB.Idx → EReal) (Wr : SW.Idx → EReal) : SN.Idx → EReal :=
  fun i => lin M X Wl Wr b (i 0) (i 1)

/-- The first layer: the linear part, cut at zero from below, times the dropout mask, times two. -/
def sageAct (M X : SN.Idx → EReal) (Wl : SW.Idx → EReal) (b : SB.Idx → EReal) (Wr : SW.Idx → EReal) (D : SN.Idx → EReal) :
    SN.Idx → EReal :=
  fun i => max (lin M X Wl Wr b (i 0) (i 1)) (Ideal.ofBits .f32 0x00000000#32) * D i * Ideal.ofBits .f32 0x40000000#32

end Cert.Sage

end
-- ==== Proof.SageLayers.lean ====
/-
  The kernel program's intermediate arrays as functions of the launch memory, on the extended reals: the neighbour
  means of the input features, the hidden features (the first layer), and the neighbour means of the hidden features.
-/
import proofs.«400240_j55937654063702_1_alg».proof.Proof.SageHost
import proofs.«400240_j55937654063702_1_alg».proof.Proof.SageSpec

noncomputable section

namespace Cert.KernelIdeal.Sage

open Cert.KernelIdeal Cert.KernelIdeal.Gen Idealize.ShloMosaic Idealize.ShloMosaic.TcCoe Idealize.SL.Sem

variable (m : (ℓ : Loc nD τ sig) → Buf (Elt Ideal) ℓ)

/-- The neighbour means of the input features, with the fill value where a source index misses the array. -/
def mean1 (c : Dev nD) : FVec Ideal S50000x128 .f32 :=
  meanOver (F := Ideal) (takeRows (F := Ideal) (m ((c.tc : Thread nD τ).loc main_arg0)) (srcOf (m ((c.tc : Thread nD τ).loc main_arg1)))) (dstOf (m ((c.tc : Thread nD τ).loc main_arg1))) (degree (F := Ideal) (dstOf (m ((c.tc : Thread nD τ).loc main_arg1))))

/-- The hidden features: the first layer of the input features. -/
def hiddenK (c : Dev nD) : FVec Ideal S50000x128 .f32 :=
  Cert.Sage.sageAct (mean1 m c) (m ((c.tc : Thread nD τ).loc main_arg0)) (m ((c.tc : Thread nD τ).loc main_arg3)) (biasRow (F := Ideal) (m ((c.tc : Thread nD τ).loc main_arg4))) (m ((c.tc : Thread nD τ).loc main_arg5)) (m ((c.tc : Thread nD τ).loc main_arg2))

/-- The neighbour means of the hidden features, over the same counts. -/
def mean2 (c : Dev nD) : FVec Ideal S50000x128 .f32 :=
  meanOver (F := Ideal) (takeRows (F := Ideal) (hiddenK m c) (srcOf (m ((c.tc : Thread nD τ).loc main_arg1)))) (dstOf (m ((c.tc : Thread nD τ).loc main_arg1))) (degree (F := Ideal) (dstOf (m ((c.tc : Thread nD τ).loc main_arg1))))

end Cert.KernelIdeal.Sage

end
-- ==== Proof.SageTake.lean ====
/-
  The two host stretches that read rows of a [50000, 128] array at the source indices of the edges, each as one
  function of the buffers it starts from: the per-edge mask "the wrapped index names a row", the gathered rows,
  the fill value, and the choice between the two by the mask.
-/
import proofs.«400240_j55937654063702_1_alg».proof.Proof.Gen.KernelIdeal.Frame
import proofs.«400240_j55937654063702_1_alg».proof.Proof.SageHost
import Idealize.ShloMosaic.Lib.StableHlo.Run

set_option maxRecDepth 16384

noncomputable section

namespace Cert.KernelIdeal.Sage

open Cert.KernelIdeal Cert.KernelIdeal.Gen Idealize.ShloMosaic Idealize.ShloMosaic.TcCoe Idealize.SL.Sem

variable {F : FTy → Type} [FloatOps F]

/-! ## The row read of stretch `hostOps0_1` -/

set_option maxHeartbeats 4000000 in
theorem take0_inRows (Wa : Valuation τ sig (Elt F)) :
    StableHlo.after hostOps0_1 Wa (Proc.devRef .tc main_call0_v12) = inRows (Wa (Proc.devRef .tc main_v1)) := by
  simp only [hostOps0_1]
  after_results
  chain_rfl

set_option maxHeartbeats 4000000 in
theorem take0_gather (Wa : Valuation τ sig (Elt F)) :
    StableHlo.after hostOps0_1 Wa (Proc.devRef .tc main_call0_v13)
      = gatherRows (F := F) (Wa (Proc.devRef .tc main_arg0)) (Wa (Proc.devRef .tc main_v1)) := by
  simp only [hostOps0_1]
  after_results
  chain_rfl

set_option maxHeartbeats 4000000 in
theorem take0_fill (Wa : Valuation τ sig (Elt F)) :
    StableHlo.after hostOps0_1 Wa (Proc.devRef .tc main_call0_v15)
      = (broadcastInDim S800000x128 ![] bcast_S_S800000x128 (constant (F := F) S_ .f32 0x7FC00000#32) : FVec F S800000x128 .f32) := by
  simp only [hostOps0_1]
  after_results
  chain_rfl

set_option maxHeartbeats 4000000 in
/-- The mask over the 128 columns is the per-edge mask, whatever that is. -/
theorem take0_mask (Wa : Valuation τ sig (Elt F)) :
    StableHlo.after hostOps0_1 Wa (Proc.devRef .tc main_call0_v14)
      = broadcastInDim S800000x128 ![0] bcast_S800000_S800000x128_0 (StableHlo.after hostOps0_1 Wa (Proc.devRef .tc main_call0_v12)) := by
  simp only [hostOps0_1]
  after_results
  chain_rfl

set_option maxHeartbeats 4000000 in
/-- The rows read are the choice, by the mask, between the gathered rows and the fill value, whatever those are. -/
theorem take0_select (Wa : Valuation τ sig (Elt F)) :
    StableHlo.after hostOps0_1 Wa (Proc.devRef .tc main_v4)
      = select (StableHlo.after hostOps0_1 Wa (Proc.devRef .tc main_call0_v14))
          (StableHlo.after hostOps0_1 Wa (Proc.devRef .tc main_call0_v13))
          (StableHlo.after hostOps0_1 Wa (Proc.devRef .tc main_call0_v15)) := by
  simp only [hostOps0_1]
  after_results
  chain_rfl

/-- The stretch reads the rows of the array at the source indices, with the fill value where an index misses. -/
theorem take0_rows (Wa : Valuation τ sig (Elt F)) :
    StableHlo.after hostOps0_1 Wa (Proc.devRef .tc main_v4)
      = takeRows (F := F) (Wa (Proc.devRef .tc main_arg0)) (Wa (Proc.devRef .tc main_v1)) := by
  rw [take0_select, take0_mask, take0_inRows, take0_gather, take0_fill]
  rfl

/-! ## The row read of stretch `hostOps1` -/

set_option maxHeartbeats 4000000 in
theorem take1_inRows (Wa : Valuation τ sig (Elt F)) :
    StableHlo.after hostOps1 Wa (Proc.devRef .tc main_call1_v12) = inRows (Wa (Proc.devRef .tc main_v1)) := by
  simp only [hostOps1]
  after_results
  chain_rfl

set_option maxHeartbeats 4000000 in
theorem take1_gather (Wa : Valuation τ sig (Elt F)) :
    StableHlo.after hostOps1 Wa (Proc.devRef .tc main_call1_v13)
      = gatherRows (F := F) (Wa (Proc.devRef .tc main_v17)) (Wa (Proc.devRef .tc main_v1)) := by
  simp only [hostOps1]
  after_results
  chain_rfl

set_option maxHeartbeats 4000000 in
theorem take1_fill (Wa : Valuation τ sig (Elt F)) :
    StableHlo.after hostOps1 Wa (Proc.devRef .tc main_call1_v15)
      = (broadcastInDim S800000x128 ![] bcast_S_S800000x128 (constant (F := F) S_ .f32 0x7FC00000#32) : FVec F S800000x128 .f32) := by
  simp only [hostOps1]
  after_results
  chain_rfl

set_option maxHeartbeats 4000000 in
/-- The mask over the 128 columns is the per-edge mask, whatever that is. -/
theorem take1_mask (Wa : Valuation τ sig (Elt F)) :
    StableHlo.after hostOps1 Wa (Proc.devRef .tc main_call1_v14)
      = broadcastInDim S800000x128 ![0] bcast_S800000_S800000x128_0 (StableHlo.after hostOps1 Wa (Proc.devRef .tc main_call1_v12)) := by
  simp only [hostOps1]
  after_results
  chain_rfl

set_option maxHeartbeats 4000000 in
/-- The rows read are the choice, by the mask, between the gathered rows and the fill value, whatever those are. -/
theorem take1_select (Wa : Valuation τ sig (Elt F)) :
    StableHlo.after hostOps1 Wa (Proc.devRef .tc main_v18)
      = select (StableHlo.after hostOps1 Wa (Proc.devRef .tc main_call1_v14))
          (StableHlo.after hostOps1 Wa (Proc.devRef .tc main_call1_v13))
          (StableHlo.after hostOps1 Wa (Proc.devRef .tc main_call1_v15)) := by
  simp only [hostOps1]
  after_results
  chain_rfl

/-- The stretch reads the rows of the array at the source indices, with the fill value where an index misses. -/
theorem take1_rows (Wa : Valuation τ sig (Elt F)) :
    StableHlo.after hostOps1 Wa (Proc.devRef .tc main_v18)
      = takeRows (F := F) (Wa (Proc.devRef .tc main_v17)) (Wa (Proc.devRef .tc main_v1)) := by
  rw [take1_select, take1_mask, take1_inRows, take1_gather, take1_fill]
  rfl

end Cert.KernelIdeal.Sage

end
-- ==== Proof.SagePayload.lean ====
/-
  What the two kernel bodies store, entry by entry, on the extended reals: a block of 5000 rows of the layer.
  Rounding the operands to bf16 changes nothing there, a matrix product into a zero accumulator is the sum of
  products over the 128 shared channels, and the bias row is added to every row of the block.
-/
import proofs.«400240_j55937654063702_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Sage

open Cert.KernelIdeal Cert.KernelIdeal.Gen Idealize.ShloMosaic Idealize.ShloMosaic.ValueIdx

/-! ## The matrix product's operand indices

  The product contracts the left operand's second axis with the right operand's first: at the output entry (p, q)
  and the shared channel k it reads the left operand at (p, k) and the right operand at (k, q). -/

/-- The left operand's row is the output's row. -/
theorem lhs_dot_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column is the shared channel. -/
theorem lhs_dot_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
/-- The right operand's row is the shared channel. -/
theorem rhs_dot_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
/-- The right operand's column is the output's column. -/
theorem rhs_dot_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A product of a 5000-row block with a 128 × 128 matrix into the zero accumulator, read at an entry: the sum over
    the 128 shared channels of the products of the entries, whatever the operands' formats. -/
theorem matmul_zero_apply {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  refine (Ideal.matmul_constant_zero_apply dot_S5000x128_S128x128_S5000x128_1_0_0_1_n_n none l r (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_dot_0 _ _).trans hk
    | ⟨1, _⟩ => exact rhs_dot_1 _ _)
  rw [el, er]

/-- The bias row broadcast to the block, read at an entry: the bias of that column. -/
theorem bias_apply (b : Vec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b broadcasts_S1x128_S5000x128 (ix2 p q) (ix2 0 q) (fun a => match a with
    | ⟨0, _⟩ => by show 0 = if (1 : Nat) = 1 then 0 else _; rw [if_pos rfl]
    | ⟨1, _⟩ => by show q.val = if (128 : Nat) = 1 then 0 else q.val; rw [if_neg (by decide)])

/-! ## The two stored blocks -/

/-- An entry of the first body's stored block: the two products summed, the bias added, cut at zero from below,
    times the mask block, times two. -/
theorem k0_pay1_apply (v0 v3 : Vec Ideal S5000x128 .f32) (v5 v7 : Vec Ideal S128x128 .f32) (v12 : Vec Ideal S1x128 .f32)
    (v18 : Vec Ideal S5000x128 .f32) (p : Fin 5000) (q : Fin 128) :
    k0_pay1 v0 v3 v5 v7 v12 v18 (ix2 p q)
      = max (((∑ k : Fin 128, v0 (ix2 p k) * v5 (ix2 k q)) + (∑ k : Fin 128, v3 (ix2 p k) * v7 (ix2 k q))) + v12 (ix2 0 q))
          (Ideal.ofBits .f32 0x00000000#32) * v18 (ix2 p q) * Ideal.ofBits .f32 0x40000000#32 := by
  unfold k0_pay1
  simp only [shapeCast_self]
  show max (matmul dot_S5000x128_S128x128_S5000x128_1_0_0_1_n_n none _ _ _ (ix2 p q) + matmul dot_S5000x128_S128x128_S5000x128_1_0_0_1_n_n none _ _ _ (ix2 p q) + broadcastTo S5000x128 _ _ (ix2 p q)) _ * _ * _ = _
  rw [matmul_zero_apply, matmul_zero_apply]
  have hb := bias_apply v12 p q
  rw [shapeCast_self] at hb
  rw [hb]
  rfl

/-- An entry of the second body's stored block: the two products summed, the bias added. -/
theorem k1_pay1_apply (v0 v3 : Vec Ideal S5000x128 .f32) (v6 v8 : Vec Ideal S128x128 .f32) (v13 : Vec Ideal S1x128 .f32)
    (p : Fin 5000) (q : Fin 128) :
    k1_pay1 v0 v3 v6 v8 v13 (ix2 p q)
      = ((∑ k : Fin 128, v0 (ix2 p k) * v6 (ix2 k q)) + (∑ k : Fin 128, v3 (ix2 p k) * v8 (ix2 k q))) + v13 (ix2 0 q) := by
  unfold k1_pay1
  simp only [shapeCast_self]
  show matmul dot_S5000x128_S128x128_S5000x128_1_0_0_1_n_n none _ _ _ (ix2 p q) + matmul dot_S5000x128_S128x128_S5000x128_1_0_0_1_n_n none _ _ _ (ix2 p q) + broadcastTo S5000x128 _ _ (ix2 p q) = _
  rw [matmul_zero_apply, matmul_zero_apply]
  have hb := bias_apply v13 p q
  rw [shapeCast_self] at hb
  rw [hb]
  rfl

end Cert.KernelIdeal.Sage

end
-- ==== Proof.SageRegion0.lean ====
/-
  Region 0 of the program: the ten blocks of 5000 rows that its grid points write back tile the [50000, 128]
  output, and block t holds rows 5000·t … 5000·t + 4999 of the layer computed from the arrays the region finds:
  the row-blocked operands move with the output block, the weights and the bias row are read whole at every point.
-/
import proofs.«400240_j55937654063702_1_alg».proof.Proof.Gen.KernelIdeal.Frame
import proofs.«400240_j55937654063702_1_alg».proof.Proof.SagePayload
import proofs.«400240_j55937654063702_1_alg».proof.Proof.SageSpec
import Idealize.ShloMosaic.Lib.Pipeline.Value

set_option maxRecDepth 16384

noncomputable section

namespace Cert.KernelIdeal.Sage

open Cert.KernelIdeal Cert.KernelIdeal.Gen Idealize.ShloMosaic Idealize.ShloMosaic.TcCoe Idealize.SL.Sem
open Idealize.ShloMosaic.Pipeline (Dat)
open Idealize.ShloMosaic.ValueIdx

/-- The zero offsets of a whole-block access, however spelt. -/
private theorem zero_off : (![0, 0] : Fin 2 → Nat) = fun _ => 0 :=
  funext fun a => by match a with | ⟨0, _⟩ => rfl | ⟨1, _⟩ => rfl

/-- The block indices at grid point t: the row-blocked windows (means, features, mask, output) sit at block row t,
    column block 0; the weights and the bias row sit at block (0, 0). -/
private theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-- An entry of the stored block is the layer's entry at an array index, once each operand block's entries that
    it uses are the arrays' entries in that index's row and column. -/
private theorem entry_eq (M X D : S50000x128.Idx → EReal) (Wl Wr : S128x128.Idx → EReal) (b : S1x128.Idx → EReal)
    (x0 x1 x5 : Vec Ideal S5000x128 .f32) (x2 x4 : Vec Ideal S128x128 .f32) (x3 : Vec Ideal S1x128 .f32)
    (i : S50000x128.Idx) (p : Fin 5000) (q : Fin 128)
    (h0 : ∀ k : Fin 128, x0 (ix2 p k) = M (ix2 (i 0) k))
    (h1 : ∀ k : Fin 128, x1 (ix2 p k) = X (ix2 (i 0) k))
    (h2 : ∀ k : Fin 128, x2 (ix2 k q) = Wl (ix2 k (i 1)))
    (h4 : ∀ k : Fin 128, x4 (ix2 k q) = Wr (ix2 k (i 1)))
    (h3 : x3 (ix2 0 q) = b (ix2 0 (i 1)))
    (h5 : x5 (ix2 p q) = D i) :
    k0_pay1 x0 x1 x2 x4 x3 x5 (ix2 p q) = Cert.Sage.sageAct M X Wl b Wr D i := by
  rw [k0_pay1_apply]
  show _ = max (Cert.Sage.lin M X Wl Wr b (i 0) (i 1)) (Ideal.ofBits .f32 0x00000000#32) * D i * Ideal.ofBits .f32 0x40000000#32
  unfold Cert.Sage.lin
  have e0 : (∑ k : Fin 128, x0 (ix2 p k) * x2 (ix2 k q)) = ∑ k : Fin 128, M (ix2 (i 0) k) * Wl (ix2 k (i 1)) :=
    Finset.sum_congr rfl (fun k _ => by rw [h0 k, h2 k])
  have e1 : (∑ k : Fin 128, x1 (ix2 p k) * x4 (ix2 k q)) = ∑ k : Fin 128, X (ix2 (i 0) k) * Wr (ix2 k (i 1)) :=
    Finset.sum_congr rfl (fun k _ => by rw [h1 k, h4 k])
  rw [e0, e1, h3, h5]

variable (V : (c : Dev nD) → (b : Ref sig .tc) → Buf (Elt Ideal) ((c : Thread nD τ).loc b))

/-- What grid point t writes back is block t of the layer of the arrays the region was entered with. -/
private theorem written_block (c : Dev nD) (t : Fin cfg0.N) :
    (dat0 V c).flushed 6 t = ((cfg0.win 6).blk t).view.read (Elt Ideal)
      (Cert.Sage.sageAct (V c main_v15) (V c main_arg0) (V c main_arg3) (V c main_v16) (V c main_arg5) (V c main_arg2)) := by
  show (cfg0.win 6).cut (grid0.coords t) ((dat0 V c).after 6 t) = _
  rw [after0_6]
  unfold out0_6
  rw [View.canon_unit_zero zero_off]
  simp only [View.ld_unit_zero (S := S5000x128) zero_off, View.ld_unit_zero (S := S128x128) zero_off, View.ld_unit_zero (S := S1x128) zero_off]
  obtain ⟨a00, a01, a10, a11, a20, a21, a30, a31, a40, a41, a50, a51, a60, a61⟩ := block_indices t
  funext j
  obtain ⟨p, q, rfl⟩ : ∃ (p : Fin 5000) (q : Fin 128), j = ix2 p q := ⟨j 0, j 1, eq_ix2 j⟩
  refine entry_eq (V c main_v15) (V c main_arg0) (V c main_arg2) (V c main_arg3) (V c main_arg5) (V c main_v16)
    (iblk0 V c 0 t) (iblk0 V c 1 t) (iblk0 V c 5 t) (iblk0 V c 2 t) (iblk0 V c 4 t) (iblk0 V c 3 t)
    (((cfg0.win 6).blk t).view.emb (ix2 p q)) p q ?_ ?_ ?_ ?_ ?_ ?_
  -- the means block: row p of block t is row 5000·t + p of the array, the columns are the array's
  · intro k
    show V c main_v15 (((cfg0.win 0).blk t).view.emb (ix2 p k)) = V c main_v15 (ix2 (((cfg0.win 6).blk t).view.emb (ix2 p q) 0) k)
    refine congrArg (V c main_v15) (funext fun a => Fin.ext ?_)
    match a with
    | ⟨0, _⟩ => show win0_0.index t (0 : Fin 2) * 5000 + 1 * p.val = win0_6.index t (0 : Fin 2) * 5000 + 1 * p.val; omega
    | ⟨1, _⟩ => show win0_0.index t (1 : Fin 2) * 128 + 1 * k.val = k.val; omega
  -- the features block, likewise
  · intro k
    show V c main_arg0 (((cfg0.win 1).blk t).view.emb (ix2 p k)) = V c main_arg0 (ix2 (((cfg0.win 6).blk t).view.emb (ix2 p q) 0) k)
    refine congrArg (V c main_arg0) (funext fun a => Fin.ext ?_)
    match a with
    | ⟨0, _⟩ => show win0_1.index t (0 : Fin 2) * 5000 + 1 * p.val = win0_6.index t (0 : Fin 2) * 5000 + 1 * p.val; omega
    | ⟨1, _⟩ => show win0_1.index t (1 : Fin 2) * 128 + 1 * k.val = k.val; omega
  -- the first weight matrix, whole: column q of the block is column q of the output index
  · intro k
    show V c main_arg3 (((cfg0.win 2).blk t).view.emb (ix2 k q)) = V c main_arg3 (ix2 k (((cfg0.win 6).blk t).view.emb (ix2 p q) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * q.val = win0_6.index t (1 : Fin 2) * 128 + 1 * q.val; omega
  -- the second weight matrix, whole
  · intro k
    show V c main_arg5 (((cfg0.win 4).blk t).view.emb (ix2 k q)) = V c main_arg5 (ix2 k (((cfg0.win 6).blk t).view.emb (ix2 p q) 1))
    refine congrArg (V c main_arg5) (funext fun a => Fin.ext ?_)
    match a with
    | ⟨0, _⟩ => show win0_4.index t (0 : Fin 2) * 128 + 1 * k.val = k.val; omega
    | ⟨1, _⟩ => show win0_4.index t (1 : Fin 2) * 128 + 1 * q.val = win0_6.index t (1 : Fin 2) * 128 + 1 * q.val; omega
  -- the bias row, whole
  · show V c main_v16 (((cfg0.win 3).blk t).view.emb (ix2 0 q)) = V c main_v16 (ix2 0 (((cfg0.win 6).blk t).view.emb (ix2 p q) 1))
    refine congrArg (V c main_v16) (funext fun a => Fin.ext ?_)
    match a with
    | ⟨0, _⟩ => show win0_3.index t (0 : Fin 2) * 1 + 1 * 0 = 0; omega
    | ⟨1, _⟩ => show win0_3.index t (1 : Fin 2) * 128 + 1 * q.val = win0_6.index t (1 : Fin 2) * 128 + 1 * q.val; omega
  -- the mask block sits where the output block does
  · show V c main_arg2 (((cfg0.win 5).blk t).view.emb (ix2 p q)) = V c main_arg2 (((cfg0.win 6).blk t).view.emb (ix2 p q))
    refine congrArg (V c main_arg2) (funext fun a => Fin.ext ?_)
    match a with
    | ⟨0, _⟩ => show win0_5.index t (0 : Fin 2) * 5000 + 1 * p.val = win0_6.index t (0 : Fin 2) * 5000 + 1 * p.val; omega
    | ⟨1, _⟩ => show win0_5.index t (1 : Fin 2) * 128 + 1 * q.val = win0_6.index t (1 : Fin 2) * 128 + 1 * q.val; omega

/-- An index of the output array is in point t's block iff each coordinate is in the block's range on its axis. -/
private theorem mem_block (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v17).slice (win0_6.rect t)).set ↔ _
  rw [View.set_slice_whole, Rect.mem_set_unit]
  exact Iff.rfl

/-- Row r of the output lies in the block of point r / 5000: the ten blocks tile the array. -/
private theorem blocks_cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hlt : (i 0).val / 5000 < grid0.N := by rw [N_0]; omega
  obtain ⟨t, ht⟩ : ∃ t : Fin cfg0.N, t.val = (i 0).val / 5000 := ⟨⟨(i 0).val / 5000, hlt⟩, rfl⟩
  refine ⟨t, flush0_6 t, ?_⟩
  rw [mem_block]
  obtain ⟨-, -, -, -, -, -, -, -, -, -, -, -, a60, a61⟩ := block_indices t
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 128 ≤ (i 1).val ∧ (i 1).val < win0_6.index t (1 : Fin 2) * 128 + 128; omega

/-- After region 0 its output array holds the layer of the arrays the region was entered with. -/
theorem region0_value (c : Dev nD) :
    (dat0 V c).arrAt 6 cfg0.N = Cert.Sage.sageAct (V c main_v15) (V c main_arg0) (V c main_arg3) (V c main_v16) (V c main_arg5) (V c main_arg2) :=
  (dat0 V c).arrAt_eq_of_cover 6 _ (fun t _ => written_block V c t) blocks_cover

end Cert.KernelIdeal.Sage

end
-- ==== Proof.SageRegion1.lean ====
/-
  Region 1 of the program: the ten blocks of 5000 rows that its grid points write back tile the [50000, 128]
  output, and block t holds rows 5000·t … 5000·t + 4999 of the layer computed from the arrays the region finds:
  the row-blocked operands move with the output block, the weights and the bias row are read whole at every point.
-/
import proofs.«400240_j55937654063702_1_alg».proof.Proof.Gen.KernelIdeal.Frame
import proofs.«400240_j55937654063702_1_alg».proof.Proof.SagePayload
import proofs.«400240_j55937654063702_1_alg».proof.Proof.SageSpec
import Idealize.ShloMosaic.Lib.Pipeline.Value

set_option maxRecDepth 16384

noncomputable section

namespace Cert.KernelIdeal.Sage

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

section Blocks
open Idealize.ShloMosaic.ValueIdx

/-- The zero offsets of a whole-buffer access, as the constant function. -/
private theorem zero_offsets1 : (![0, 0] : Fin 2 → Nat) = fun _ => 0 :=
  funext fun a => by match a with | ⟨0, _⟩ => rfl | ⟨1, _⟩ => rfl

/-- The printed index maps over the ten grid points: the two row-blocked operands and the output sit at row block
    `t`, column block 0; the weights and the bias row sit at block (0, 0). -/
private theorem block_indices1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- One entry of a stored block against the layer: when row `p` of the two row-blocked operands is row `r` of the
    means and of the features, and column `q` of the weights and of the bias row is held as it is in the arrays,
    entry (p, q) of the stored block is the layer at row `r`, channel `q`. -/
private theorem block_entry1 (M X : Cert.Sage.SN.Idx → EReal) (Wl Wr : Cert.Sage.SW.Idx → EReal) (b : Cert.Sage.SB.Idx → EReal)
    (x0 x1 : Vec Ideal S5000x128 .f32) (x2 x4 : Vec Ideal S128x128 .f32) (x3 : Vec Ideal S1x128 .f32)
    (r : Fin 50000) (p : Fin 5000) (q : Fin 128)
    (h0 : ∀ k : Fin 128, x0 (ix2 p k) = M (ix2 r k)) (h1 : ∀ k : Fin 128, x1 (ix2 p k) = X (ix2 r k))
    (h2 : ∀ k : Fin 128, x2 (ix2 k q) = Wl (ix2 k q)) (h4 : ∀ k : Fin 128, x4 (ix2 k q) = Wr (ix2 k q))
    (h3 : x3 (ix2 0 q) = b (ix2 0 q)) :
    k1_pay1 x0 x1 x2 x4 x3 (ix2 p q) = Cert.Sage.lin M X Wl Wr b r q := by
  rw [k1_pay1_apply]
  unfold Cert.Sage.lin
  rw [h3]
  congr 1
  congr 1
  · exact Finset.sum_congr rfl (fun k _ => by rw [h0 k, h2 k])
  · exact Finset.sum_congr rfl (fun k _ => by rw [h1 k, h4 k])

/-- What grid point `t` writes back is block `t` of the layer of the arrays the region finds. -/
private theorem written_block1 (c : Dev nD) (t : Fin cfg1.N) :
    (dat1 V c).flushed 5 t = ((cfg1.win 5).blk t).view.read (Elt Ideal)
      (Cert.Sage.sageLin (V c main_v23) (V c main_v17) (V c main_arg6) (V c main_v24) (V c main_arg8)) := by
  show (cfg1.win 5).cut (grid1.coords t) ((dat1 V c).after 5 t) = _
  rw [after1_5]
  unfold out1_5
  rw [View.canon_unit_zero zero_offsets1]
  simp only [View.ld_unit_zero (S := S5000x128) zero_offsets1, View.ld_unit_zero (S := S128x128) zero_offsets1,
    View.ld_unit_zero (S := S1x128) zero_offsets1]
  obtain ⟨e00, e01, e10, e11, e20, e21, e30, e31, e40, e41, e50, e51⟩ := block_indices1 t
  have ht : t.val < 10 := N_1 ▸ t.isLt
  funext j
  obtain ⟨p, q, rfl⟩ : ∃ (p : Fin 5000) (q : Fin 128), j = ix2 p q := ⟨j 0, j 1, eq_ix2 j⟩
  have hp : p.val < 5000 := p.isLt
  have hq : q.val < 128 := q.isLt
  -- the entry's place in the output array: row 5000·t + p, channel q
  have hemb : ((cfg1.win 5).blk t).view.emb (ix2 p q) = (ix2 (⟨t.val * 5000 + p.val, by omega⟩ : Fin 50000) q : S50000x128.Idx) := by
    funext a; apply Fin.ext
    match a with
    | ⟨0, _⟩ => show win1_5.index t (0 : Fin 2) * 5000 + 1 * p.val = t.val * 5000 + p.val; omega
    | ⟨1, _⟩ => show win1_5.index t (1 : Fin 2) * 128 + 1 * q.val = q.val; omega
  show k1_pay1 (iblk1 V c 0 t) (iblk1 V c 1 t) (iblk1 V c 2 t) (iblk1 V c 4 t) (iblk1 V c 3 t) (ix2 p q)
    = Cert.Sage.sageLin (V c main_v23) (V c main_v17) (V c main_arg6) (V c main_v24) (V c main_arg8) (((cfg1.win 5).blk t).view.emb (ix2 p q))
  rw [hemb]
  show k1_pay1 (iblk1 V c 0 t) (iblk1 V c 1 t) (iblk1 V c 2 t) (iblk1 V c 4 t) (iblk1 V c 3 t) (ix2 p q)
    = Cert.Sage.lin (V c main_v23) (V c main_v17) (V c main_arg6) (V c main_arg8) (V c main_v24) (⟨t.val * 5000 + p.val, by omega⟩ : Fin 50000) q
  refine block_entry1 _ _ _ _ _ _ _ _ _ _ _ p q (fun k => ?_) (fun k => ?_) (fun k => ?_) (fun k => ?_) ?_
  · -- row p of the means' block is row 5000·t + p of the means
    show V c main_v23 (((cfg1.win 0).blk t).view.emb (ix2 p k)) = V c main_v23 (ix2 (⟨t.val * 5000 + p.val, by omega⟩ : Fin 50000) k)
    have h : ((cfg1.win 0).blk t).view.emb (ix2 p k) = (ix2 (⟨t.val * 5000 + p.val, by omega⟩ : Fin 50000) k : S50000x128.Idx) := by
      funext a; apply Fin.ext
      match a with
      | ⟨0, _⟩ => show win1_0.index t (0 : Fin 2) * 5000 + 1 * p.val = t.val * 5000 + p.val; omega
      | ⟨1, _⟩ => show win1_0.index t (1 : Fin 2) * 128 + 1 * k.val = k.val; omega
    rw [h]
  · -- row p of the features' block is row 5000·t + p of the features
    show V c main_v17 (((cfg1.win 1).blk t).view.emb (ix2 p k)) = V c main_v17 (ix2 (⟨t.val * 5000 + p.val, by omega⟩ : Fin 50000) k)
    have h : ((cfg1.win 1).blk t).view.emb (ix2 p k) = (ix2 (⟨t.val * 5000 + p.val, by omega⟩ : Fin 50000) k : S50000x128.Idx) := by
      funext a; apply Fin.ext
      match a with
      | ⟨0, _⟩ => show win1_1.index t (0 : Fin 2) * 5000 + 1 * p.val = t.val * 5000 + p.val; omega
      | ⟨1, _⟩ => show win1_1.index t (1 : Fin 2) * 128 + 1 * k.val = k.val; omega
    rw [h]
  · -- the first weight matrix is held whole
    show V c main_arg6 (((cfg1.win 2).blk t).view.emb (ix2 k q)) = V c main_arg6 (ix2 k q)
    have h : ((cfg1.win 2).blk t).view.emb (ix2 k q) = (ix2 k q : S128x128.Idx) := by
      funext a; apply Fin.ext
      match a with
      | ⟨0, _⟩ => show win1_2.index t (0 : Fin 2) * 128 + 1 * k.val = k.val; omega
      | ⟨1, _⟩ => show win1_2.index t (1 : Fin 2) * 128 + 1 * q.val = q.val; omega
    rw [h]
  · -- the second weight matrix is held whole
    show V c main_arg8 (((cfg1.win 4).blk t).view.emb (ix2 k q)) = V c main_arg8 (ix2 k q)
    have h : ((cfg1.win 4).blk t).view.emb (ix2 k q) = (ix2 k q : S128x128.Idx) := by
      funext a; apply Fin.ext
      match a with
      | ⟨0, _⟩ => show win1_4.index t (0 : Fin 2) * 128 + 1 * k.val = k.val; omega
      | ⟨1, _⟩ => show win1_4.index t (1 : Fin 2) * 128 + 1 * q.val = q.val; omega
    rw [h]
  · -- the bias row is held whole
    show V c main_v24 (((cfg1.win 3).blk t).view.emb (ix2 0 q)) = V c main_v24 (ix2 0 q)
    have h : ((cfg1.win 3).blk t).view.emb (ix2 0 q) = (ix2 0 q : S1x128.Idx) := by
      funext a; apply Fin.ext
      match a with
      | ⟨0, _⟩ => show win1_3.index t (0 : Fin 2) * 1 + 1 * (0 : Fin 1).val = (0 : Fin 1).val; omega
      | ⟨1, _⟩ => show win1_3.index t (1 : Fin 2) * 128 + 1 * q.val = q.val; omega
    rw [h]

/-- An index of the output array is in grid point `t`'s block iff each coordinate is in the block's range on its axis. -/
private theorem mem_block1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v25).slice (win1_5.rect t)).set ↔ _
  rw [View.set_slice_whole, Rect.mem_set_unit]
  exact Iff.rfl

/-- The ten blocks tile the output array: row `r` lies in the block of grid point `r / 5000`. -/
private theorem blocks_cover1 (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  have hN : (i 0).val / 5000 < cfg1.N := by rw [show cfg1.N = 10 from N_1]; omega
  obtain ⟨-, -, -, -, -, -, -, -, -, -, e50, e51⟩ := block_indices1 ⟨(i 0).val / 5000, hN⟩
  have e50' : win1_5.index ⟨(i 0).val / 5000, hN⟩ (0 : Fin 2) = (i 0).val / 5000 := e50
  refine ⟨⟨(i 0).val / 5000, hN⟩, flush1_5 _, ?_⟩
  rw [mem_block1]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    omega
  | ⟨1, _⟩ =>
    show win1_5.index ⟨(i 0).val / 5000, hN⟩ (1 : Fin 2) * 128 ≤ (i 1).val ∧ (i 1).val < win1_5.index ⟨(i 0).val / 5000, hN⟩ (1 : Fin 2) * 128 + 128
    omega

end Blocks

/-- After region 1 its output array holds the layer of the arrays the region was entered with. -/
theorem region1_value (c : Dev nD) :
    (dat1 V c).arrAt 5 cfg1.N = Cert.Sage.sageLin (V c main_v23) (V c main_v17) (V c main_arg6) (V c main_v24) (V c main_arg8) :=
  (dat1 V c).arrAt_eq_of_cover 5 _ (fun t _ => written_block1 V c t) blocks_cover1

end Cert.KernelIdeal.Sage

end
-- ==== Proof.SageChain.lean ====
/-
  The contents of the buffers at each boundary of the program, read back to the launch memory: the arrays the first
  region is entered with (the neighbour means of the input features, the bias as a row, the arguments), the hidden
  features it leaves, the arrays the second region is entered with (the neighbour means of the hidden features over
  the same counts), and the result it leaves: the second layer of the hidden features.
-/
import proofs.«400240_j55937654063702_1_alg».proof.Proof.Gen.KernelIdeal.Frame
import proofs.«400240_j55937654063702_1_alg».proof.Proof.SageHost
import proofs.«400240_j55937654063702_1_alg».proof.Proof.SageSpec
import proofs.«400240_j55937654063702_1_alg».proof.Proof.SageLayers
import proofs.«400240_j55937654063702_1_alg».proof.Proof.SageTake
import proofs.«400240_j55937654063702_1_alg».proof.Proof.SageRegion0
import proofs.«400240_j55937654063702_1_alg».proof.Proof.SageRegion1
import Idealize.ShloMosaic.Lib.StableHlo.Run

set_option maxRecDepth 16384

noncomputable section

namespace Cert.KernelIdeal.Sage

open Cert.KernelIdeal Cert.KernelIdeal.Gen Idealize.ShloMosaic Idealize.ShloMosaic.TcCoe Idealize.SL.Sem

/-! ## The host stretches, for any float values -/

section Host

variable {F : FTy → Type} [FloatOps F]
variable (m : (ℓ : Loc nD τ sig) → Buf (Elt F) ℓ) (ρ : Dev nD → PrngReg)

set_option maxHeartbeats 4000000 in
/-- The last stretch before the first region: the mean of the messages it finds, over the counts it computes. -/
theorem stage0_mean (Wa : Valuation τ sig (Elt F)) :
    StableHlo.after hostOps0_2 Wa (Proc.devRef .tc main_v15)
      = meanOver (F := F) (Wa (Proc.devRef .tc main_v4)) (Wa (Proc.devRef .tc main_v3)) (degree (F := F) (Wa (Proc.devRef .tc main_v3))) := by
  simp only [hostOps0_2]
  after_results
  chain_rfl

set_option maxHeartbeats 4000000 in
theorem mid0_dst (c : Dev nD) : W2 m ρ c (Proc.devRef .tc main_v3) = dstOf (m ((c.tc : Thread nD τ).loc main_arg1)) := by
  dsimp only [W2, W1]
  simp only [hostOps0, hostOps0_1]
  after_results <;> rfl

set_option maxHeartbeats 4000000 in
theorem mid0_src (c : Dev nD) : W1 m ρ c (Proc.devRef .tc main_v1) = srcOf (m ((c.tc : Thread nD τ).loc main_arg1)) := by
  dsimp only [W1]
  simp only [hostOps0]
  after_results <;> rfl

set_option maxHeartbeats 4000000 in
theorem mid0_arg0 (c : Dev nD) : W1 m ρ c (Proc.devRef .tc main_arg0) = (m ((c.tc : Thread nD τ).loc main_arg0)) := by
  dsimp only [W1]
  simp only [hostOps0]
  after_results <;> rfl

/-- Before the first region: the neighbour means of the input features. -/
theorem host0_mean (c : Dev nD) : W3 m ρ c (Proc.devRef .tc main_v15)
    = meanOver (takeRows (m ((c.tc : Thread nD τ).loc main_arg0)) (srcOf (m ((c.tc : Thread nD τ).loc main_arg1)))) (dstOf (m ((c.tc : Thread nD τ).loc main_arg1))) (degree (dstOf (m ((c.tc : Thread nD τ).loc main_arg1)))) := by
  have e3 : W3 m ρ c (Proc.devRef .tc main_v15)
      = meanOver (F := F) (W2 m ρ c (Proc.devRef .tc main_v4)) (W2 m ρ c (Proc.devRef .tc main_v3))
          (degree (F := F) (W2 m ρ c (Proc.devRef .tc main_v3))) := stage0_mean (W2 m ρ c)
  have e4 : W2 m ρ c (Proc.devRef .tc main_v4)
      = takeRows (F := F) (W1 m ρ c (Proc.devRef .tc main_arg0)) (W1 m ρ c (Proc.devRef .tc main_v1)) := take0_rows (W1 m ρ c)
  rw [e3, e4, mid0_dst m ρ c, mid0_src m ρ c, mid0_arg0 m ρ c]

set_option maxHeartbeats 4000000 in
/-- Before the first region: the first bias as a row. -/
theorem host0_bias (c : Dev nD) : W3 m ρ c (Proc.devRef .tc main_v16) = biasRow (m ((c.tc : Thread nD τ).loc main_arg4)) := by
  dsimp only [W3, W2, W1]
  simp only [hostOps0, hostOps0_1, hostOps0_2]
  after_results <;> rfl

set_option maxHeartbeats 4000000 in
theorem host0_src (c : Dev nD) : W3 m ρ c (Proc.devRef .tc main_v1) = srcOf (m ((c.tc : Thread nD τ).loc main_arg1)) := by
  dsimp only [W3, W2, W1]
  simp only [hostOps0, hostOps0_1, hostOps0_2]
  after_results <;> rfl

set_option maxHeartbeats 4000000 in
theorem host0_dst (c : Dev nD) : W3 m ρ c (Proc.devRef .tc main_v3) = dstOf (m ((c.tc : Thread nD τ).loc main_arg1)) := by
  dsimp only [W3, W2, W1]
  simp only [hostOps0, hostOps0_1, hostOps0_2]
  after_results <;> rfl

set_option maxHeartbeats 4000000 in
theorem host0_degree (c : Dev nD) : W3 m ρ c (Proc.devRef .tc main_v13) = degree (F := F) (dstOf (m ((c.tc : Thread nD τ).loc main_arg1))) := by
  dsimp only [W3, W2, W1]
  simp only [hostOps0, hostOps0_1, hostOps0_2]
  after_results <;> rfl

set_option maxHeartbeats 4000000 in
theorem host0_arg0 (c : Dev nD) : W3 m ρ c (Proc.devRef .tc main_arg0) = (m ((c.tc : Thread nD τ).loc main_arg0)) := by
  dsimp only [W3, W2, W1]
  simp only [hostOps0, hostOps0_1, hostOps0_2]
  after_results <;> rfl
set_option maxHeartbeats 4000000 in
theorem host0_arg2 (c : Dev nD) : W3 m ρ c (Proc.devRef .tc main_arg2) = (m ((c.tc : Thread nD τ).loc main_arg2)) := by
  dsimp only [W3, W2, W1]
  simp only [hostOps0, hostOps0_1, hostOps0_2]
  after_results <;> rfl
set_option maxHeartbeats 4000000 in
theorem host0_arg3 (c : Dev nD) : W3 m ρ c (Proc.devRef .tc main_arg3) = (m ((c.tc : Thread nD τ).loc main_arg3)) := by
  dsimp only [W3, W2, W1]
  simp only [hostOps0, hostOps0_1, hostOps0_2]
  after_results <;> rfl
set_option maxHeartbeats 4000000 in
theorem host0_arg5 (c : Dev nD) : W3 m ρ c (Proc.devRef .tc main_arg5) = (m ((c.tc : Thread nD τ).loc main_arg5)) := by
  dsimp only [W3, W2, W1]
  simp only [hostOps0, hostOps0_1, hostOps0_2]
  after_results <;> rfl
set_option maxHeartbeats 4000000 in
theorem host0_arg6 (c : Dev nD) : W3 m ρ c (Proc.devRef .tc main_arg6) = (m ((c.tc : Thread nD τ).loc main_arg6)) := by
  dsimp only [W3, W2, W1]
  simp only [hostOps0, hostOps0_1, hostOps0_2]
  after_results <;> rfl
set_option maxHeartbeats 4000000 in
theorem host0_arg7 (c : Dev nD) : W3 m ρ c (Proc.devRef .tc main_arg7) = (m ((c.tc : Thread nD τ).loc main_arg7)) := by
  dsimp only [W3, W2, W1]
  simp only [hostOps0, hostOps0_1, hostOps0_2]
  after_results <;> rfl
set_option maxHeartbeats 4000000 in
theorem host0_arg8 (c : Dev nD) : W3 m ρ c (Proc.devRef .tc main_arg8) = (m ((c.tc : Thread nD τ).loc main_arg8)) := by
  dsimp only [W3, W2, W1]
  simp only [hostOps0, hostOps0_1, hostOps0_2]
  after_results <;> rfl

set_option maxHeartbeats 4000000 in
/-- The last stretch before the second region: the mean of the messages it finds, over the counts it finds. -/
theorem stage1_mean (Wa : Valuation τ sig (Elt F)) :
    StableHlo.after hostOps1_1 Wa (Proc.devRef .tc main_v23)
      = meanOver (F := F) (Wa (Proc.devRef .tc main_v18)) (Wa (Proc.devRef .tc main_v3)) (Wa (Proc.devRef .tc main_v13)) := by
  simp only [hostOps1_1]
  after_results
  chain_rfl

set_option maxHeartbeats 4000000 in
theorem mid1_dst (c : Dev nD) : W5 m ρ c (Proc.devRef .tc main_v3) = W4 m ρ c (Proc.devRef .tc main_v3) := by
  dsimp only [W5]
  simp only [hostOps1]
  after_results <;> rfl

set_option maxHeartbeats 4000000 in
theorem mid1_degree (c : Dev nD) : W5 m ρ c (Proc.devRef .tc main_v13) = W4 m ρ c (Proc.devRef .tc main_v13) := by
  dsimp only [W5]
  simp only [hostOps1]
  after_results <;> rfl

/-- Between the regions: the neighbour means of whatever the first region left, over the counts computed before it. -/
theorem host1_mean (c : Dev nD) : W6 m ρ c (Proc.devRef .tc main_v23)
    = meanOver (takeRows (W4 m ρ c (Proc.devRef .tc main_v17)) (W4 m ρ c (Proc.devRef .tc main_v1)))
        (W4 m ρ c (Proc.devRef .tc main_v3)) (W4 m ρ c (Proc.devRef .tc main_v13)) := by
  have e1 : W6 m ρ c (Proc.devRef .tc main_v23)
      = meanOver (F := F) (W5 m ρ c (Proc.devRef .tc main_v18)) (W5 m ρ c (Proc.devRef .tc main_v3))
          (W5 m ρ c (Proc.devRef .tc main_v13)) := stage1_mean (W5 m ρ c)
  have e2 : W5 m ρ c (Proc.devRef .tc main_v18)
      = takeRows (F := F) (W4 m ρ c (Proc.devRef .tc main_v17)) (W4 m ρ c (Proc.devRef .tc main_v1)) := take1_rows (W4 m ρ c)
  rw [e1, e2, mid1_dst m ρ c, mid1_degree m ρ c]

set_option maxHeartbeats 4000000 in
theorem host1_hidden (c : Dev nD) : W6 m ρ c (Proc.devRef .tc main_v17) = W4 m ρ c (Proc.devRef .tc main_v17) := by
  dsimp only [W6, W5]
  simp only [hostOps1, hostOps1_1]
  after_results <;> rfl

set_option maxHeartbeats 4000000 in
theorem host1_bias (c : Dev nD) : W6 m ρ c (Proc.devRef .tc main_v24) = biasRow (W4 m ρ c (Proc.devRef .tc main_arg7)) := by
  dsimp only [W6, W5]
  simp only [hostOps1, hostOps1_1]
  after_results <;> rfl

set_option maxHeartbeats 4000000 in
theorem host1_arg6 (c : Dev nD) : W6 m ρ c (Proc.devRef .tc main_arg6) = W4 m ρ c (Proc.devRef .tc main_arg6) := by
  dsimp only [W6, W5]
  simp only [hostOps1, hostOps1_1]
  after_results <;> rfl

set_option maxHeartbeats 4000000 in
theorem host1_arg8 (c : Dev nD) : W6 m ρ c (Proc.devRef .tc main_arg8) = W4 m ρ c (Proc.devRef .tc main_arg8) := by
  dsimp only [W6, W5]
  simp only [hostOps1, hostOps1_1]
  after_results <;> rfl

end Host

/-! ## On the extended reals -/

variable (m : (ℓ : Loc nD τ sig) → Buf (Elt Ideal) ℓ) (ρ : Dev nD → PrngReg)

/-- The first region leaves the hidden features in its output array. -/
theorem exit0_hidden (c : Dev nD) : W4 m ρ c (Proc.devRef .tc main_v17) = hiddenK m c := by
  refine (W4_arr m ρ c 6).trans ?_
  refine (region0_value (V3 m ρ) c).trans ?_
  show Cert.Sage.sageAct (W3 m ρ c (Proc.devRef .tc main_v15)) (W3 m ρ c (Proc.devRef .tc main_arg0)) (W3 m ρ c (Proc.devRef .tc main_arg3))
      (W3 m ρ c (Proc.devRef .tc main_v16)) (W3 m ρ c (Proc.devRef .tc main_arg5)) (W3 m ρ c (Proc.devRef .tc main_arg2)) = _
  rw [host0_mean m ρ c, host0_bias m ρ c, host0_arg0 m ρ c, host0_arg2 m ρ c, host0_arg3 m ρ c, host0_arg5 m ρ c]
  rfl

theorem exit0_src (c : Dev nD) : W4 m ρ c (Proc.devRef .tc main_v1) = srcOf (m ((c.tc : Thread nD τ).loc main_arg1)) :=
  (W4_of_ne m ρ c main_v1 (by decide)).trans (host0_src m ρ c)
theorem exit0_dst (c : Dev nD) : W4 m ρ c (Proc.devRef .tc main_v3) = dstOf (m ((c.tc : Thread nD τ).loc main_arg1)) :=
  (W4_of_ne m ρ c main_v3 (by decide)).trans (host0_dst m ρ c)
theorem exit0_degree (c : Dev nD) : W4 m ρ c (Proc.devRef .tc main_v13) = degree (F := Ideal) (dstOf (m ((c.tc : Thread nD τ).loc main_arg1))) :=
  (W4_of_ne m ρ c main_v13 (by decide)).trans (host0_degree m ρ c)
theorem exit0_arg6 (c : Dev nD) : W4 m ρ c (Proc.devRef .tc main_arg6) = (m ((c.tc : Thread nD τ).loc main_arg6)) :=
  (W4_of_ne m ρ c main_arg6 (by decide)).trans (host0_arg6 m ρ c)
theorem exit0_arg7 (c : Dev nD) : W4 m ρ c (Proc.devRef .tc main_arg7) = (m ((c.tc : Thread nD τ).loc main_arg7)) :=
  (W4_of_ne m ρ c main_arg7 (by decide)).trans (host0_arg7 m ρ c)
theorem exit0_arg8 (c : Dev nD) : W4 m ρ c (Proc.devRef .tc main_arg8) = (m ((c.tc : Thread nD τ).loc main_arg8)) :=
  (W4_of_ne m ρ c main_arg8 (by decide)).trans (host0_arg8 m ρ c)

/-- The second region leaves in the result buffer the second layer of the hidden features. -/
theorem result_value (c : Dev nD) :
    W7 m ρ c (Proc.devRef .tc main_v25)
      = Cert.Sage.sageLin (mean2 m c) (hiddenK m c) (m ((c.tc : Thread nD τ).loc main_arg6)) (biasRow (F := Ideal) (m ((c.tc : Thread nD τ).loc main_arg7))) (m ((c.tc : Thread nD τ).loc main_arg8)) := by
  refine (W7_arr m ρ c 5).trans ?_
  refine (region1_value (V6 m ρ) c).trans ?_
  show Cert.Sage.sageLin (W6 m ρ c (Proc.devRef .tc main_v23)) (W6 m ρ c (Proc.devRef .tc main_v17)) (W6 m ρ c (Proc.devRef .tc main_arg6))
      (W6 m ρ c (Proc.devRef .tc main_v24)) (W6 m ρ c (Proc.devRef .tc main_arg8)) = _
  rw [host1_mean m ρ c, host1_hidden m ρ c, host1_bias m ρ c, host1_arg6 m ρ c, host1_arg8 m ρ c,
    exit0_hidden m ρ c, exit0_src m ρ c, exit0_dst m ρ c, exit0_degree m ρ c, exit0_arg6 m ρ c, exit0_arg7 m ρ c, exit0_arg8 m ρ c]
  rfl

end Cert.KernelIdeal.Sage

end
-- ==== Proof.SagePre.lean ====
/-
  The precondition, read back: its last conjunct says that every source index of the edge list lies in
  [-50000, 50000), which is the range in which an index names one of the 50000 rows.
-/
import proofs.«400240_j55937654063702_1_alg».proof.Defs
import proofs.«400240_j55937654063702_1_alg».proof.Proof.Gen.Pre_finite_inputs
import proofs.«400240_j55937654063702_1_alg».proof.Proof.SageHost

noncomputable section

namespace Cert.KernelIdeal.Sage

open Cert.KernelIdeal Cert.KernelIdeal.Gen Idealize.ShloMosaic Idealize.ShloMosaic.TcCoe Idealize.SL.Sem

/-- Under the precondition every source index of the edge list is in range. -/
theorem srcInRange_of_pre (m : (ℓ : Loc nD τ sig) → Buf (Elt Ideal) ℓ) (h : Cert.Pre_KernelIdeal m) (c : Dev nD) :
    SrcInRange (srcOf (m ((c.tc : Thread nD τ).loc main_arg1))) := by
  intro e
  -- the precondition's one word, on device c
  have e0 := congrFun (h c) ValueIdx.ix0
  unfold Cert.Pre_finite_inputs.fn Cert.Pre_finite_inputs.fn_part1 Cert.Pre_finite_inputs.fn_part2 at e0
  dsimp only at e0
  -- its last conjunct: the conjunction, over all edges, of the two comparisons of the source index
  have e1 := (IntOp.andi_eq_one.1 e0).2
  clear e0
  haveI : Subsingleton Cert.Pre_finite_inputs.S_.Idx := ⟨fun a b => funext fun d => d.elim0⟩
  -- the two comparisons at edge e
  have e2 := Host.reduce_andi_all _ _ _ _ _ e1 e
  clear e1
  obtain ⟨hge, hlt⟩ := IntOp.andi_eq_one.1 e2
  clear e2
  -- the two bounds, read signed
  have k1 : (4294917296#32 : BitVec 32).toInt = -50000 := by decide
  have k2 : (50000#32 : BitVec 32).toInt = 50000 := by decide
  have hge' : (4294917296#32 : BitVec 32).toInt ≤ (srcOf (m ((c.tc : Thread nD τ).loc main_arg1)) e).toInt :=
    IntOp.cmpi_sge.1 hge
  have hlt' : (srcOf (m ((c.tc : Thread nD τ).loc main_arg1)) e).toInt < (50000#32 : BitVec 32).toInt :=
    IntOp.cmpi_slt.1 hlt
  rw [k1] at hge'
  rw [k2] at hlt'
  exact ⟨hge', hlt'⟩

end Cert.KernelIdeal.Sage

end
-- ==== Proof.SageRef.lean ====
/-
  The reference program's result as the two layers applied one after the other: the second layer of the hidden
  features, which are the first layer of the inputs; each layer takes the mean of the neighbours' rows, gathered
  at the source indices and summed at the destination indices. And each layer, written with the host's matrix
  products and broadcasts, is the layer of the specification, index by index.
-/
import proofs.«400240_j55937654063702_1_alg».proof.Proof.Gen.ReferenceIdeal.Run
import proofs.«400240_j55937654063702_1_alg».proof.Proof.Gen.ReferenceIdeal.Read
import proofs.«400240_j55937654063702_1_alg».proof.Proof.SageHost
import proofs.«400240_j55937654063702_1_alg».proof.Proof.SageSpec
import Idealize.ShloMosaic.Lib.ValueLayout

noncomputable section

namespace Cert.ReferenceIdeal.SageRef

open Cert.ReferenceIdeal Cert.ReferenceIdeal.Gen Idealize.ShloMosaic Idealize.ShloMosaic.TcCoe Idealize.SL.Sem
open Cert.KernelIdeal.Sage (srcOf dstOf gatherRows degree meanOver biasRow)

/-- A layer's linear part in the reference's operations: means × Wl, plus the bias on every row, plus features × Wr. -/
def refLin (M X : FVec Ideal S50000x128 .f32) (Wl : FVec Ideal S128x128 .f32) (b : FVec Ideal S128 .f32)
    (Wr : FVec Ideal S128x128 .f32) : FVec Ideal S50000x128 .f32 :=
  addf (addf (Host.dotGeneral dot_S50000x128_S128x128_S50000x128_1_0_0_1_n_n none M Wl)
      (broadcastInDim S50000x128 ![0, 1] bcast_S1x128_S50000x128_0_1 (broadcastInDim S1x128 ![1] bcast_S128_S1x128_1 b)))
    (Host.dotGeneral dot_S50000x128_S128x128_S50000x128_1_0_0_1_n_n none X Wr)

/-- The first layer in the reference's operations: the linear part, relu, the dropout mask, the factor two. -/
def refAct (M X : FVec Ideal S50000x128 .f32) (Wl : FVec Ideal S128x128 .f32) (b : FVec Ideal S128 .f32)
    (Wr : FVec Ideal S128x128 .f32) (D : FVec Ideal S50000x128 .f32) : FVec Ideal S50000x128 .f32 :=
  mulf (mulf (maximumf (refLin M X Wl b Wr) (broadcastInDim S50000x128 ![] bcast_S_S50000x128 (constant S_ .f32 0x00000000#32))) D)
    (broadcastInDim S50000x128 ![] bcast_S_S50000x128 (constant S_ .f32 0x40000000#32))

/-- A matrix product read at (r, q): row r of the left operand against column q of the right. -/
private theorem dot_apply (A : FVec Ideal S50000x128 .f32) (B : FVec Ideal S128x128 .f32) (r : Fin 50000) (q : Fin 128) :
    Host.dotGeneral dot_S50000x128_S128x128_S50000x128_1_0_0_1_n_n none A B (ValueIdx.ix2 r q)
      = ∑ k : Fin 128, A (ValueIdx.ix2 r k) * B (ValueIdx.ix2 k q) := by
  refine (Cert.ReferenceIdeal.Read.val_main_v26_apply A B (ValueIdx.ix2 r q)).trans ?_
  refine Finset.sum_congr rfl fun k _ => ?_
  have el : Cert.ReferenceIdeal.Read.lidx_main_v26 (ValueIdx.ix2 r q) k = ValueIdx.ix2 r k :=
    funext fun a => match a with | ⟨0, _⟩ => rfl | ⟨1, _⟩ => rfl
  have er : Cert.ReferenceIdeal.Read.ridx_main_v26 (ValueIdx.ix2 r q) k = ValueIdx.ix2 k q :=
    funext fun a => match a with | ⟨0, _⟩ => rfl | ⟨1, _⟩ => rfl
  rw [el, er]

/-- The bias vector broadcast to a row and then to every row reads, at (r, q), the vector at q. -/
private theorem bias_apply (b : FVec Ideal S128 .f32) (r : Fin 50000) (q : Fin 128) :
    broadcastInDim S50000x128 ![0, 1] bcast_S1x128_S50000x128_0_1 (broadcastInDim S1x128 ![1] bcast_S128_S1x128_1 b) (ValueIdx.ix2 r q)
      = b (ValueIdx.ix1 q) := by
  refine (Cert.ReferenceIdeal.Read.val_main_v24_apply (F := Ideal) b (ValueIdx.ix2 r q)).trans ?_
  refine (Cert.ReferenceIdeal.Read.val_main_v23_apply (F := Ideal) b _).trans ?_
  refine congrArg b (funext fun a => ?_)
  match a with
  | ⟨0, _⟩ => rfl

/-- The bias vector laid out as a row reads, at (0, q), the vector at q. -/
private theorem biasRow_apply (b : FVec Ideal S128 .f32) (q : Fin 128) :
    biasRow (F := Ideal) b (ValueIdx.ix2 0 q) = b (ValueIdx.ix1 q) :=
  ValueIdx.shapeCast_a_1a_apply b _ 0 q

/-- A scalar constant broadcast to every entry reads its word everywhere. -/
private theorem const_apply (w : BitVec 32) (i : S50000x128.Idx) :
    broadcastInDim S50000x128 ![] bcast_S_S50000x128 (constant (F := Ideal) S_ .f32 w) i = Ideal.ofBits .f32 w :=
  broadcastInDim_apply _ bcast_S_S50000x128 _ i ValueIdx.ix0 (fun a => a.elim0)

/-- The reference's linear part is the specification's, with the bias vector laid out as a row. -/
theorem refLin_eq (M X : FVec Ideal S50000x128 .f32) (Wl : FVec Ideal S128x128 .f32) (b : FVec Ideal S128 .f32)
    (Wr : FVec Ideal S128x128 .f32) :
    refLin M X Wl b Wr = Cert.Sage.sageLin M X Wl (biasRow (F := Ideal) b) Wr := by
  funext i
  obtain ⟨r, q, rfl⟩ : ∃ r q, i = ValueIdx.ix2 r q := ⟨i 0, i 1, ValueIdx.eq_ix2 i⟩
  show (Host.dotGeneral dot_S50000x128_S128x128_S50000x128_1_0_0_1_n_n none M Wl (ValueIdx.ix2 r q)
        + broadcastInDim S50000x128 ![0, 1] bcast_S1x128_S50000x128_0_1 (broadcastInDim S1x128 ![1] bcast_S128_S1x128_1 b) (ValueIdx.ix2 r q))
        + Host.dotGeneral dot_S50000x128_S128x128_S50000x128_1_0_0_1_n_n none X Wr (ValueIdx.ix2 r q)
      = ((∑ k : Fin 128, M (ValueIdx.ix2 r k) * Wl (ValueIdx.ix2 k q)) + ∑ k : Fin 128, X (ValueIdx.ix2 r k) * Wr (ValueIdx.ix2 k q))
        + biasRow (F := Ideal) b (ValueIdx.ix2 0 q)
  rw [dot_apply, dot_apply, bias_apply, biasRow_apply, add_right_comm]

/-- The reference's first layer is the specification's. -/
theorem refAct_eq (M X : FVec Ideal S50000x128 .f32) (Wl : FVec Ideal S128x128 .f32) (b : FVec Ideal S128 .f32)
    (Wr : FVec Ideal S128x128 .f32) (D : FVec Ideal S50000x128 .f32) :
    refAct M X Wl b Wr D = Cert.Sage.sageAct M X Wl (biasRow (F := Ideal) b) Wr D := by
  funext i
  show max (refLin M X Wl b Wr i) (broadcastInDim S50000x128 ![] bcast_S_S50000x128 (constant (F := Ideal) S_ .f32 0x00000000#32) i) * D i
        * broadcastInDim S50000x128 ![] bcast_S_S50000x128 (constant (F := Ideal) S_ .f32 0x40000000#32) i
      = max (Cert.Sage.sageLin M X Wl (biasRow (F := Ideal) b) Wr i) (Ideal.ofBits .f32 0x00000000#32) * D i * Ideal.ofBits .f32 0x40000000#32
  rw [const_apply, const_apply, refLin_eq]

variable (m : (ℓ : Loc nD τ sig) → Buf (Elt Ideal) ℓ)

/-- The hidden features: the first layer of the inputs. -/
def hidden (c : Dev nD) : FVec Ideal S50000x128 .f32 :=
  refAct
    (meanOver (F := Ideal) (gatherRows (F := Ideal) (m ((c.tc : Thread nD τ).loc main_arg0)) (srcOf (m ((c.tc : Thread nD τ).loc main_arg1))))
      (dstOf (m ((c.tc : Thread nD τ).loc main_arg1))) (degree (F := Ideal) (dstOf (m ((c.tc : Thread nD τ).loc main_arg1)))))
    (m ((c.tc : Thread nD τ).loc main_arg0)) (m ((c.tc : Thread nD τ).loc main_arg3)) (m ((c.tc : Thread nD τ).loc main_arg4))
    (m ((c.tc : Thread nD τ).loc main_arg5)) (m ((c.tc : Thread nD τ).loc main_arg2))

set_option maxRecDepth 8192 in
/-- The reference's result is the second layer of the hidden features. -/
theorem result_eq (c : Dev nD) :
    Cert.ReferenceIdeal.Value.res_main_v55 (F := Ideal) m c
      = refLin
          (meanOver (F := Ideal) (gatherRows (F := Ideal) (hidden m c) (srcOf (m ((c.tc : Thread nD τ).loc main_arg1))))
            (dstOf (m ((c.tc : Thread nD τ).loc main_arg1))) (degree (F := Ideal) (dstOf (m ((c.tc : Thread nD τ).loc main_arg1)))))
          (hidden m c) (m ((c.tc : Thread nD τ).loc main_arg6)) (m ((c.tc : Thread nD τ).loc main_arg7))
          (m ((c.tc : Thread nD τ).loc main_arg8)) := by
  unfold Cert.ReferenceIdeal.Value.res_main_v55 hidden refAct refLin meanOver gatherRows Cert.KernelIdeal.Sage.rowIdx
    Cert.KernelIdeal.Sage.wrapIdx degree srcOf dstOf
  rfl

end Cert.ReferenceIdeal.SageRef

end
-- ==== Proof.lean ====
/-
  Two layers of a graph network with mean aggregation (neighbour rows gathered at the source indices of the edges,
  summed at their destinations, divided by the neighbour count), the first followed by relu, a dropout mask and the
  factor two. The kernel program computes the two linear heads of each layer in a tiled region (ten blocks of 5000
  rows) and the gathers, sums and divisions on the host; the reference computes everything on the host.

  On the extended reals both programs compute, for a layer with neighbour means M, features X, weights Wl, Wr and bias b,
      out[r, q] = Σₖ M[r, k]·Wl[k, q] + Σₖ X[r, k]·Wr[k, q] + b[q]:
  the kernel adds the bias last, the reference between the two products — the same sum, since addition on the
  extended reals is commutative and associative (no finiteness is used). Rounding the operands of a product to
  bf16 is the identity there, a product into a zero accumulator is the plain sum, and the blocks tile the array.
  The one place where the two programs differ is how a row is read at a source index outside [-50000, 50000): the
  kernel program fills such a row with a fixed value, the reference clamps the index. The precondition keeps every
  source index inside that range, where both read the same row (a negative index counting from the end in both).

  `preserves` is trivial: the idealization rewrote nothing.
-/
import proofs.«400240_j55937654063702_1_alg».proof.Defs
import proofs.«400240_j55937654063702_1_alg».proof.Proof.Gen.Kernel
import proofs.«400240_j55937654063702_1_alg».proof.Proof.Gen.Kernel.Skeleton
import proofs.«400240_j55937654063702_1_alg».proof.Proof.Gen.Kernel.Launch
import proofs.«400240_j55937654063702_1_alg».proof.Proof.Gen.Kernel.Points
import proofs.«400240_j55937654063702_1_alg».proof.Proof.Gen.Kernel.Frame
import proofs.«400240_j55937654063702_1_alg».proof.Proof.Gen.KernelIdeal
import proofs.«400240_j55937654063702_1_alg».proof.Proof.Gen.KernelIdeal.Skeleton
import proofs.«400240_j55937654063702_1_alg».proof.Proof.Gen.KernelIdeal.Launch
import proofs.«400240_j55937654063702_1_alg».proof.Proof.Gen.KernelIdeal.Points
import proofs.«400240_j55937654063702_1_alg».proof.Proof.Gen.KernelIdeal.Frame
import proofs.«400240_j55937654063702_1_alg».proof.Proof.Gen.ReferenceIdeal
import proofs.«400240_j55937654063702_1_alg».proof.Proof.Gen.Pre_finite_inputs
import proofs.«400240_j55937654063702_1_alg».proof.Proof.Gen.ReferenceIdeal.Run
import proofs.«400240_j55937654063702_1_alg».proof.Proof.Gen.ReferenceIdeal.Read
import proofs.«400240_j55937654063702_1_alg».proof.Proof.SageRun
import proofs.«400240_j55937654063702_1_alg».proof.Proof.SageLayers
import proofs.«400240_j55937654063702_1_alg».proof.Proof.SageChain
import proofs.«400240_j55937654063702_1_alg».proof.Proof.SagePre
import proofs.«400240_j55937654063702_1_alg».proof.Proof.SageRef
import Idealize.ShloMosaic.Adequacy
import Idealize.ShloMosaic.Init

noncomputable section

namespace Cert.Proof

open Idealize.ShloMosaic Idealize.ShloMosaic.TcCoe Idealize.SL.Sem
open Cert.KernelIdeal.Sage (srcOf dstOf gatherRows takeRows degree meanOver biasRow mean1 mean2 hiddenK)

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, from a memory that agrees with the kernel program's on the arguments, is the second
    layer of the hidden features as the kernel program computes them: the layers agree with the specification's,
    and under the precondition every gathered row is read inside the array. -/
theorem reference_value
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (h0 : m' ((c.tc : Thread Cert.ReferenceIdeal.nD Cert.ReferenceIdeal.τ).loc Cert.ReferenceIdeal.main_arg0) = (m ((c.tc : Thread Cert.KernelIdeal.nD Cert.KernelIdeal.τ).loc Cert.KernelIdeal.main_arg0)))
    (h1 : m' ((c.tc : Thread Cert.ReferenceIdeal.nD Cert.ReferenceIdeal.τ).loc Cert.ReferenceIdeal.main_arg1) = (m ((c.tc : Thread Cert.KernelIdeal.nD Cert.KernelIdeal.τ).loc Cert.KernelIdeal.main_arg1)))
    (h2 : m' ((c.tc : Thread Cert.ReferenceIdeal.nD Cert.ReferenceIdeal.τ).loc Cert.ReferenceIdeal.main_arg2) = (m ((c.tc : Thread Cert.KernelIdeal.nD Cert.KernelIdeal.τ).loc Cert.KernelIdeal.main_arg2)))
    (h3 : m' ((c.tc : Thread Cert.ReferenceIdeal.nD Cert.ReferenceIdeal.τ).loc Cert.ReferenceIdeal.main_arg3) = (m ((c.tc : Thread Cert.KernelIdeal.nD Cert.KernelIdeal.τ).loc Cert.KernelIdeal.main_arg3)))
    (h4 : m' ((c.tc : Thread Cert.ReferenceIdeal.nD Cert.ReferenceIdeal.τ).loc Cert.ReferenceIdeal.main_arg4) = (m ((c.tc : Thread Cert.KernelIdeal.nD Cert.KernelIdeal.τ).loc Cert.KernelIdeal.main_arg4)))
    (h5 : m' ((c.tc : Thread Cert.ReferenceIdeal.nD Cert.ReferenceIdeal.τ).loc Cert.ReferenceIdeal.main_arg5) = (m ((c.tc : Thread Cert.KernelIdeal.nD Cert.KernelIdeal.τ).loc Cert.KernelIdeal.main_arg5)))
    (h6 : m' ((c.tc : Thread Cert.ReferenceIdeal.nD Cert.ReferenceIdeal.τ).loc Cert.ReferenceIdeal.main_arg6) = (m ((c.tc : Thread Cert.KernelIdeal.nD Cert.KernelIdeal.τ).loc Cert.KernelIdeal.main_arg6)))
    (h7 : m' ((c.tc : Thread Cert.ReferenceIdeal.nD Cert.ReferenceIdeal.τ).loc Cert.ReferenceIdeal.main_arg7) = (m ((c.tc : Thread Cert.KernelIdeal.nD Cert.KernelIdeal.τ).loc Cert.KernelIdeal.main_arg7)))
    (h8 : m' ((c.tc : Thread Cert.ReferenceIdeal.nD Cert.ReferenceIdeal.τ).loc Cert.ReferenceIdeal.main_arg8) = (m ((c.tc : Thread Cert.KernelIdeal.nD Cert.KernelIdeal.τ).loc Cert.KernelIdeal.main_arg8))) :
    Cert.ReferenceIdeal.Value.res_main_v55 (F := Ideal) m' c
      = Cert.Sage.sageLin (mean2 m c) (hiddenK m c) (m ((c.tc : Thread Cert.KernelIdeal.nD Cert.KernelIdeal.τ).loc Cert.KernelIdeal.main_arg6)) (biasRow (F := Ideal) (m ((c.tc : Thread Cert.KernelIdeal.nD Cert.KernelIdeal.τ).loc Cert.KernelIdeal.main_arg7))) (m ((c.tc : Thread Cert.KernelIdeal.nD Cert.KernelIdeal.τ).loc Cert.KernelIdeal.main_arg8)) := by
  have hs := Cert.KernelIdeal.Sage.srcInRange_of_pre m hpre c
  rw [Cert.ReferenceIdeal.SageRef.result_eq m' c, Cert.ReferenceIdeal.SageRef.refLin_eq]
  unfold Cert.ReferenceIdeal.SageRef.hidden
  rw [Cert.ReferenceIdeal.SageRef.refAct_eq, h0, h1, h2, h3, h4, h5, h6, h7, h8]
  unfold mean2 hiddenK mean1
  rw [Cert.KernelIdeal.Sage.takeRows_eq_gatherRows _ _ hs, Cert.KernelIdeal.Sage.takeRows_eq_gatherRows _ _ hs]

theorem algebraic : Cert.algebraic_KernelIdeal_ReferenceIdeal := by
  intro m ρ m' ρ' hpre hagree
  refine ⟨fun c => Cert.Sage.sageLin (mean2 m c) (hiddenK m c) (m ((c.tc : Thread Cert.KernelIdeal.nD Cert.KernelIdeal.τ).loc Cert.KernelIdeal.main_arg6)) (biasRow (F := Ideal) (m ((c.tc : Thread Cert.KernelIdeal.nD Cert.KernelIdeal.τ).loc Cert.KernelIdeal.main_arg7))) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Sage.result_value m ρ c), (h c).2⟩)
      (Cert.KernelIdeal.Sage.run_main (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8⟩ := hagree c
    exact reference_value m m' hpre c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
